-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x21x512x512 : Shape := ⟨4, ![16, 21, 512, 512]⟩
abbrev S16x512x512 : Shape := ⟨3, ![16, 512, 512]⟩
abbrev S_ : Shape := ⟨0, ![]⟩

class Facts : Prop where
  bcast_S_S16x21x512x512 : S_.BroadcastsInDim S16x21x512x512 (![] : Fin 0 → Fin S16x21x512x512.rank)
  reducesTo_S16x21x512x512_S_d0_1_2_3 : S16x21x512x512.ReducesTo [0, 1, 2, 3] S_
  h_S_ : 0 < S_.numel
  bcast_S_S16x512x512 : S_.BroadcastsInDim S16x512x512 (![] : Fin 0 → Fin S16x512x512.rank)
  reducesTo_S16x512x512_S_d0_1_2 : S16x512x512.ReducesTo [0, 1, 2] S_

variable [Facts]

def fn {F : FTy → Type} [FloatOps F] (main_arg0 : FVec F S16x21x512x512 .f32) (main_arg1 : IVec S16x512x512 32) : IVec S_ 1 :=
  let main_v0 : FVec F S16x21x512x512 .f32 := Host.absf main_arg0
  let main_cst : FVec F S_ .f32 := constant S_ .f32 0x7F800000#32
  let main_v1 : FVec F S16x21x512x512 .f32 := broadcastInDim S16x21x512x512 ![] bcast_S_S16x21x512x512 main_cst
  let main_v2 : IVec S16x21x512x512 1 := cmpf .olt main_v0 main_v1
  let main_c : IVec S_ 1 := constantI S_ 1 1#1
  let main_v3 : IVec S_ 1 := (fun x v => Host.reduce IntOp.andi x v reducesTo_S16x21x512x512_S_d0_1_2_3 h_S_) main_v2 main_c
  let main_c_0 : IVec S_ 32 := constantI S_ 32 0#32
  let main_v4 : IVec S16x512x512 32 := broadcastInDim S16x512x512 ![] bcast_S_S16x512x512 main_c_0
  let main_v5 : IVec S16x512x512 1 := cmpi .sge main_arg1 main_v4
  let main_c_1 : IVec S_ 32 := constantI S_ 32 21#32
  let main_v6 : IVec S16x512x512 32 := broadcastInDim S16x512x512 ![] bcast_S_S16x512x512 main_c_1
  let main_v7 : IVec S16x512x512 1 := cmpi .slt main_arg1 main_v6
  let main_v8 : IVec S16x512x512 1 := andi main_v5 main_v7
  let main_c_2 : IVec S_ 1 := constantI S_ 1 1#1
  let main_v9 : IVec S_ 1 := (fun x v => Host.reduce IntOp.andi x v reducesTo_S16x512x512_S_d0_1_2 h_S_) main_v8 main_c_2
  let main_v10 : IVec S_ 1 := andi main_v3 main_v9
  main_v10
-- ==== Kernel.lean ====
abbrev S16x21x512x512 : Shape := ⟨4, ![16, 21, 512, 512]⟩
abbrev S16x512x512 : Shape := ⟨3, ![16, 512, 512]⟩
abbrev S16x1x21 : Shape := ⟨3, ![16, 1, 21]⟩
abbrev S16x21 : Shape := ⟨2, ![16, 21]⟩
abbrev S21x1 : Shape := ⟨2, ![21, 1]⟩
abbrev S16x21x8x128 : Shape := ⟨4, ![16, 21, 8, 128]⟩
abbrev S16x21x1x21 : Shape := ⟨4, ![16, 21, 1, 21]⟩
abbrev S16x21x21 : Shape := ⟨3, ![16, 21, 21]⟩
abbrev S16x21x1 : Shape := ⟨3, ![16, 21, 1]⟩
abbrev S21 : Shape := ⟨1, ![21]⟩

abbrev nBuf : Space → Nat
  | .hbm => 6
  | .vmem => 3
  | .smem => 0
  | _ => 0

abbrev bufTy : (tb : Table) → Fin (tcTables nBuf tb) → BufTy
  | .hbm, ⟨0, _⟩ => ⟨S16x21x512x512, .f32⟩
  | .hbm, ⟨1, _⟩ => ⟨S16x512x512, .i32⟩
  | .hbm, ⟨2, _⟩ => ⟨S16x1x21, .i32⟩
  | .hbm, ⟨3, _⟩ => ⟨S16x21, .i32⟩
  | .hbm, ⟨4, _⟩ => ⟨S21x1, .f32⟩
  | .hbm, ⟨5, _⟩ => ⟨S21, .f32⟩
  | .local _ .vmem, ⟨0, _⟩ => ⟨S16x21x8x128, .f32⟩
  | .local _ .vmem, ⟨1, _⟩ => ⟨S16x21, .i32⟩
  | .local _ .vmem, ⟨2, _⟩ => ⟨S21x1, .f32⟩
  | _, _ => ⟨S16x21x512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x21x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x21 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S21x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  slices_S16x512x512_S16x1x21_0_0_0 : S16x512x512.Slices ![0, 0, 0] S16x1x21
  shapeCasts_S16x1x21_S16x21 : S16x1x21.ShapeCasts S16x21
  inb_S16x21x8x128_S16x21x8x128_0_0_0_0 : ∀ a, (![0, 0, 0, 0] : Fin 4 → Nat) a + S16x21x8x128.size a ≤ S16x21x8x128.size a
  h_S16x21x8x128 : 0 < S16x21x8x128.numel
  slices_S16x21x8x128_o0_0_0_0_S16x21x1x21 : S16x21x8x128.Slices ![0, 0, 0, 0] S16x21x1x21
  shapeCasts_S16x21x1x21_S16x21x21 : S16x21x1x21.ShapeCasts S16x21x21
  reduces_S16x21x21_S16x21 : S16x21x21.Reduces [1] S16x21
  shapeCasts_S16x21_S16x1x21 : S16x21.ShapeCasts S16x1x21
  broadcasts_S16x1x21_S16x21x21 : S16x1x21.Broadcasts S16x21x21
  inb_S16x21_S16x21_0_0 : ∀ a, (![0, 0] : Fin 2 → Nat) a + S16x21.size a ≤ S16x21.size a
  h_S16x21 : 0 < S16x21.numel
  shapeCasts_S16x21_S16x21 : S16x21.ShapeCasts S16x21
  iota_S16x21x21_d2_w32 : S16x21x21.Iotas .tc 32 [2]
  shapeCasts_S16x21_S16x21x1 : S16x21.ShapeCasts S16x21x1
  broadcasts_S16x21x1_S16x21x21 : S16x21x1.Broadcasts S16x21x21
  natLt_1_32 : 1 < 32
  reduces_S16x21x21_S16x21_2 : S16x21x21.Reduces [2] S16x21
  reduces_S16x21x1_S21x1 : S16x21x1.Reduces [0] S21x1
  inb_S21x1_S21x1_0_0 : ∀ a, (![0, 0] : Fin 2 → Nat) a + S21x1.size a ≤ S21x1.size a
  h_S21x1 : 0 < S21x1.numel
  shapeCasts_S21x1_S21 : S21x1.ShapeCasts S21
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S16x21x8x128.size a ≤ S16x21x512x512.size a
  hwx0_0 : ∀ i : grid0.Coords, EltTy.bits .f32 = 32 ∨ (Rect.block (s := S16x21x512x512) S16x21x8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x21.size a ≤ S16x21.size a
  hwx0_1 : ∀ i : grid0.Coords, EltTy.bits .i32 = 32 ∨ (Rect.block (s := S16x21) S16x21.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S21x1.size a ≤ S21x1.size a
  hwx0_2 : ∀ i : grid0.Coords, EltTy.bits .f32 = 32 ∨ (Rect.block (s := S21x1) S21x1.size (cc0_transform_2 i) (hinb0_2 i)).WholeWords (EltTy.packing .f32)

variable [Facts₀]

abbrev win0_0 : Pipeline.Window sig grid0 :=
  Pipeline.Window.ofSpec (Memref.whole main_arg0) S16x21x8x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x21.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S21x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x21x512x512 : Shape := ⟨4, ![16, 21, 512, 512]⟩
abbrev S16x512x512 : Shape := ⟨3, ![16, 512, 512]⟩
abbrev S16x21x262144 : Shape := ⟨3, ![16, 21, 262144]⟩
abbrev S_ : Shape := ⟨0, ![]⟩
abbrev S16x262144 : Shape := ⟨2, ![16, 262144]⟩
abbrev S16x1x262144 : Shape := ⟨3, ![16, 1, 262144]⟩
abbrev S16x21 : Shape := ⟨2, ![16, 21]⟩
abbrev S16x21x1 : Shape := ⟨3, ![16, 21, 1]⟩
abbrev S16x21x1x1 : Shape := ⟨4, ![16, 21, 1, 1]⟩
abbrev S1 : Shape := ⟨1, ![1]⟩
abbrev S1x1x1x1 : Shape := ⟨4, ![1, 1, 1, 1]⟩
abbrev S21 : Shape := ⟨1, ![21]⟩

abbrev nBuf : Space → Nat
  | .hbm => 57
  | .vmem => 0
  | .smem => 0
  | _ => 0

abbrev bufTy : (tb : Table) → Fin (tcTables nBuf tb) → BufTy
  | .hbm, ⟨0, _⟩ => ⟨S16x21x512x512, .f32⟩
  | .hbm, ⟨1, _⟩ => ⟨S16x512x512, .i32⟩
  | .hbm, ⟨2, _⟩ => ⟨S16x21x262144, .f32⟩
  | .hbm, ⟨3, _⟩ => ⟨S_, .f32⟩
  | .hbm, ⟨4, _⟩ => ⟨S16x262144, .f32⟩
  | .hbm, ⟨5, _⟩ => ⟨S_, .f32⟩
  | .hbm, ⟨6, _⟩ => ⟨S16x262144, .f32⟩
  | .hbm, ⟨7, _⟩ => ⟨S16x262144, .f32⟩
  | .hbm, ⟨8, _⟩ => ⟨S16x1x262144, .f32⟩
  | .hbm, ⟨9, _⟩ => ⟨S16x21x262144, .f32⟩
  | .hbm, ⟨10, _⟩ => ⟨S16x21x262144, .f32⟩
  | .hbm, ⟨11, _⟩ => ⟨S16x21x262144, .f32⟩
  | .hbm, ⟨12, _⟩ => ⟨S_, .f32⟩
  | .hbm, ⟨13, _⟩ => ⟨S16x262144, .f32⟩
  | .hbm, ⟨14, _⟩ => ⟨S16x1x262144, .f32⟩
  | .hbm, ⟨15, _⟩ => ⟨S16x21x262144, .f32⟩
  | .hbm, ⟨16, _⟩ => ⟨S16x21x262144, .f32⟩
  | .hbm, ⟨17, _⟩ => ⟨S16x262144, .i32⟩
  | .hbm, ⟨18, _⟩ => ⟨S16x21, .i32⟩
  | .hbm, ⟨19, _⟩ => ⟨S16x21x1, .i32⟩
  | .hbm, ⟨20, _⟩ => ⟨S_, .i32⟩
  | .hbm, ⟨21, _⟩ => ⟨S16x21x1, .i32⟩
  | .hbm, ⟨22, _⟩ => ⟨S16x21x1, .i1⟩
  | .hbm, ⟨23, _⟩ => ⟨S_, .i32⟩
  | .hbm, ⟨24, _⟩ => ⟨S16x21x1, .i32⟩
  | .hbm, ⟨25, _⟩ => ⟨S16x21x1, .i32⟩
  | .hbm, ⟨26, _⟩ => ⟨S16x21x1, .i32⟩
  | .hbm, ⟨27, _⟩ => ⟨S16x21x1x1, .i32⟩
  | .hbm, ⟨28, _⟩ => ⟨S1, .i32⟩
  | .hbm, ⟨29, _⟩ => ⟨S_, .i32⟩
  | .hbm, ⟨30, _⟩ => ⟨S16x21x1x1, .i32⟩
  | .hbm, ⟨31, _⟩ => ⟨S16x21x1x1, .i1⟩
  | .hbm, ⟨32, _⟩ => ⟨S1x1x1x1, .i32⟩
  | .hbm, ⟨33, _⟩ => ⟨S16x21x1x1, .i32⟩
  | .hbm, ⟨34, _⟩ => ⟨S16x21x1x1, .i1⟩
  | .hbm, ⟨35, _⟩ => ⟨S16x21x1x1, .i1⟩
  | .hbm, ⟨36, _⟩ => ⟨S_, .i1⟩
  | .hbm, ⟨37, _⟩ => ⟨S16x21x1, .i1⟩
  | .hbm, ⟨38, _⟩ => ⟨S16x21x1, .f32⟩
  | .hbm, ⟨39, _⟩ => ⟨S_, .f32⟩
  | .hbm, ⟨40, _⟩ => ⟨S16x21x1, .f32⟩
  | .hbm, ⟨41, _⟩ => ⟨S16x21x1, .f32⟩
  | .hbm, ⟨42, _⟩ => ⟨S16x21, .f32⟩
  | .hbm, ⟨43, _⟩ => ⟨S_, .f32⟩
  | .hbm, ⟨44, _⟩ => ⟨S16x21, .f32⟩
  | .hbm, ⟨45, _⟩ => ⟨S16x21, .f32⟩
  | .hbm, ⟨46, _⟩ => ⟨S_, .f32⟩
  | .hbm, ⟨47, _⟩ => ⟨S16x21, .f32⟩
  | .hbm, ⟨48, _⟩ => ⟨S16x21, .f32⟩
  | .hbm, ⟨49, _⟩ => ⟨S_, .f32⟩
  | .hbm, ⟨50, _⟩ => ⟨S16x21, .f32⟩
  | .hbm, ⟨51, _⟩ => ⟨S16x21, .f32⟩
  | .hbm, ⟨52, _⟩ => ⟨S_, .f32⟩
  | .hbm, ⟨53, _⟩ => ⟨S21, .f32⟩
  | .hbm, ⟨54, _⟩ => ⟨S_, .f32⟩
  | .hbm, ⟨55, _⟩ => ⟨S21, .f32⟩
  | .hbm, ⟨56, _⟩ => ⟨S21, .f32⟩
  | _, _ => ⟨S16x21x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_cst : Ref sig .tc := ⟨.hbm, 39, rfl⟩
abbrev main_call0_v14 : Ref sig .tc := ⟨.hbm, 40, rfl⟩
abbrev main_v15 : Ref sig .tc := ⟨.hbm, 41, rfl⟩
abbrev main_v16 : Ref sig .tc := ⟨.hbm, 42, rfl⟩
abbrev main_cst_2 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_v25 : Ref sig .tc := ⟨.hbm, 56, rfl⟩

abbrev nD : Nat := 1
abbrev τ : Topo := Topo.v7x

variable {F : FTy → Type} [FloatOps F]

class Facts₀ : Prop where
  shapeCasts_S16x21x512x512_S16x21x262144 : S16x21x512x512.ShapeCasts S16x21x262144
  reducesTo_S16x21x262144_S16x262144_d1 : S16x21x262144.ReducesTo [1] S16x262144
  h_S_ : 0 < S_.numel
  bcast_S_S16x262144 : S_.BroadcastsInDim S16x262144 (![] : Fin 0 → Fin S16x262144.rank)
  bcast_S16x262144_S16x1x262144_0_2 : S16x262144.BroadcastsInDim S16x1x262144 (![0, 2] : Fin 2 → Fin S16x1x262144.rank)
  bcast_S16x1x262144_S16x21x262144_0_1_2 : S16x1x262144.BroadcastsInDim S16x21x262144 (![0, 1, 2] : Fin 3 → Fin S16x21x262144.rank)
  shapeCasts_S16x512x512_S16x262144 : S16x512x512.ShapeCasts S16x262144
  slices_S16x262144_S16x21_0_0 : S16x262144.Slices ![0, 0] S16x21
  bcast_S16x21_S16x21x1_0_1 : S16x21.BroadcastsInDim S16x21x1 (![0, 1] : Fin 2 → Fin S16x21x1.rank)
  bcast_S_S16x21x1 : S_.BroadcastsInDim S16x21x1 (![] : Fin 0 → Fin S16x21x1.rank)
  shapeCasts_S16x21x1_S16x21x1x1 : S16x21x1.ShapeCasts S16x21x1x1
  bcast_S_S16x21x1x1 : S_.BroadcastsInDim S16x21x1x1 (![] : Fin 0 → Fin S16x21x1x1.rank)
  bcast_S1_S1x1x1x1_3 : S1.BroadcastsInDim S1x1x1x1 (![3] : Fin 1 → Fin S1x1x1x1.rank)
  bcast_S1x1x1x1_S16x21x1x1_0_1_2_3 : S1x1x1x1.BroadcastsInDim S16x21x1x1 (![0, 1, 2, 3] : Fin 4 → Fin S16x21x1x1.rank)
  reducesTo_S16x21x1x1_S16x21x1_d3 : S16x21x1x1.ReducesTo [3] S16x21x1
  shapeCasts_S16x21x1_S16x21 : S16x21x1.ShapeCasts S16x21
  bcast_S_S16x21 : S_.BroadcastsInDim S16x21 (![] : Fin 0 → Fin S16x21.rank)
  reducesTo_S16x21_S21_d0 : S16x21.ReducesTo [0] S21
  bcast_S_S21 : S_.BroadcastsInDim S21 (![] : Fin 0 → Fin S21.rank)
  gather_S16x21x262144_S16x21x1x1_S16x21x1_n_2_01_01_2_3_111_wf : GatherDims.WF S16x21x262144 S16x21x1x1 S16x21x1 [] [2] [0, 1] [2] [0, 1] 3 ![1, 1, 1]

variable [Facts₀]

def gather_S16x21x262144_S16x21x1x1_S16x21x1_n_2_01_01_2_3_111 : GatherDims S16x21x262144 S16x21x1x1 S16x21x1 where
  offsetDims := []
  collapsedSliceDims := [2]
  operandBatchingDims := [0, 1]
  startIndicesBatchingDims := [0, 1]
  startIndexMap := [2]
  indexVectorDim := 3
  sliceSizes := ![1, 1, 1]
  wf := gather_S16x21x262144_S16x21x1x1_S16x21x1_n_2_01_01_2_3_111_wf

class Facts : Prop extends Facts₀ where

variable [Facts]
-- ==== Proof.Spec.lean ====
/-
  The generalized cross-entropy loss at the sampled pixels, as a function of the logits at the pixels that can be
  sampled and of the labels, in the two arrangements the two programs compute.

  For sample b, class k and a pixel n the class probability is the softmax over the 21 classes,
      p b k n = exp (lg b k n - M b n) / ∑ c, exp (lg b c n - M b n),   M b n = max over c of lg b c n.
  The loss entry for class k is the batch mean of (1 - d^q) / q, with d = p b k (lab b k) the probability of class k
  at the pixel the label names.  One arrangement selects d with a one-hot lane mask and a lane sum and raises to the
  power q as exp (q · log d); the other reads d at the labelled pixel and uses the power function.  For finite logits d
  is a positive real, where exp (q · log d) = d^q, and for a label inside the 21 lanes the masked sum has one term.
-/
import Idealize.ShloMosaic.PureOps.Ideal
import Idealize.ShloMosaic.PureOps.Ideal.Laws
import Mathlib.Analysis.SpecialFunctions.Pow.Real

noncomputable section

namespace Cert.Gce

open Idealize.ShloMosaic

/-- A row's maximum, folded from -∞. -/
def rowMax (row : Fin 21 → EReal) : EReal := (Finset.univ : Finset (Fin 21)).fold max ⊥ row

/-- The softmax of a row of 21 class scores, at class k. -/
def softmaxAt (row : Fin 21 → EReal) (k : Fin 21) : EReal :=
  Ideal.div (Ideal.exp (row k - rowMax row)) (∑ c : Fin 21, Ideal.exp (row c - rowMax row))

/-- The exponent q, the unit and the batch size, as the binary words both programs carry. -/
def qExp : EReal := Ideal.ofBits .f32 0x3F4CCCCD#32
def oneW : EReal := Ideal.ofBits .f32 0x3F800000#32
def batchW : EReal := Ideal.ofBits .f32 0x41800000#32

/-- (1 - d^q) / q with the power written exp (q · log d). -/
def lossExpLog (d : EReal) : EReal := Ideal.div (oneW - Ideal.exp (qExp * Ideal.log d)) qExp
/-- (1 - d^q) / q with the power function. -/
def lossPow (d : EReal) : EReal := Ideal.div (oneW - Ideal.pow d qExp) qExp

/-- The one-hot lane mask: 1 on the lane whose number is the label word, else 0. -/
def laneIs (w : BitVec 32) (n : Fin 21) : EReal := if BitVec.ofNat 32 n.val = w then 1 else 0

/-- The lane a label word names (reduced into the 21 lanes, so that the function is total). -/
def labLane (w : BitVec 32) : Fin 21 := ⟨w.toNat % 21, Nat.mod_lt _ (by decide)⟩

/-- Lane n of the 21 sampled columns as a column of a 128-wide block and of the 512-wide image row. -/
abbrev lane128 (n : Fin 21) : Fin 128 := ⟨n.val, by have := n.isLt; omega⟩
abbrev lane512 (n : Fin 21) : Fin 512 := ⟨n.val, by have := n.isLt; omega⟩

/-- The loss with the probability selected by the one-hot mask and the power as exp ∘ log. -/
def outOneHot (lg : Fin 16 → Fin 21 → Fin 21 → EReal) (lab : Fin 16 → Fin 21 → BitVec 32) (k : Fin 21) : EReal :=
  Ideal.div (∑ b : Fin 16, lossExpLog (∑ n : Fin 21, softmaxAt (fun c => lg b c n) k * laneIs (lab b k) n)) batchW

/-- The loss with the probability read at the labelled pixel and the power function. -/
def outGather (lg : Fin 16 → Fin 21 → Fin 21 → EReal) (lab : Fin 16 → Fin 21 → BitVec 32) (k : Fin 21) : EReal :=
  Ideal.div (∑ b : Fin 16, lossPow (softmaxAt (fun c => lg b c (labLane (lab b k))) k)) batchW

/-! ## The maximum and the softmax of a real row are real -/

theorem fold_max_coe (f : Fin 21 → ℝ) (s : Finset (Fin 21)) :
    s.fold max (⊥ : EReal) (fun c => (f c : EReal)) = ⊥ ∨ ∃ r : ℝ, s.fold max (⊥ : EReal) (fun c => (f c : EReal)) = r := by
  induction s using Finset.induction_on with
  | empty => left; rfl
  | insert a s ha ih =>
    right
    rw [Finset.fold_insert ha]
    rcases ih with h | ⟨r, h⟩
    · exact ⟨f a, by rw [h]; exact max_eq_left bot_le⟩
    · exact ⟨max (f a) r, by rw [h]; exact (EReal.coe_strictMono.monotone.map_max (a := f a) (b := r)).symm⟩

theorem rowMax_coe (f : Fin 21 → ℝ) : ∃ M : ℝ, rowMax (fun c => (f c : EReal)) = M := by
  rcases fold_max_coe f Finset.univ with h | h
  · exfalso
    have h0 : ((f 0 : ℝ) : EReal) ≤ (Finset.univ : Finset (Fin 21)).fold max (⊥ : EReal) (fun c => (f c : EReal)) :=
      (Finset.le_fold_max _).2 (Or.inr ⟨0, Finset.mem_univ _, le_rfl⟩)
    rw [h] at h0
    exact absurd (le_bot_iff.1 h0) (EReal.coe_ne_bot _)
  · exact h

theorem sum_coe {ι : Type} (s : Finset ι) (g : ι → ℝ) : (∑ c ∈ s, ((g c : ℝ) : EReal)) = ((∑ c ∈ s, g c : ℝ) : EReal) := by
  classical
  induction s using Finset.induction_on with
  | empty => simp
  | insert a s ha ih => rw [Finset.sum_insert ha, Finset.sum_insert ha, ih, EReal.coe_add]

/-- The softmax of a real row is a positive real. -/
theorem softmaxAt_coe (f : Fin 21 → ℝ) (k : Fin 21) : ∃ d : ℝ, 0 < d ∧ softmaxAt (fun c => (f c : EReal)) k = d := by
  obtain ⟨M, hM⟩ := rowMax_coe f
  have hs : 0 < ∑ c : Fin 21, Real.exp (f c - M) := Finset.sum_pos (fun c _ => Real.exp_pos _) ⟨0, Finset.mem_univ _⟩
  refine ⟨Real.exp (f k - M) / ∑ c : Fin 21, Real.exp (f c - M), div_pos (Real.exp_pos _) hs, ?_⟩
  unfold softmaxAt
  rw [hM]
  have e : ∀ c : Fin 21, Ideal.exp ((f c : EReal) - (M : EReal)) = ((Real.exp (f c - M) : ℝ) : EReal) := fun c => by
    rw [← EReal.coe_sub]; rfl
  simp only [e]
  rw [sum_coe, Ideal.div, if_neg (by exact_mod_cast hs.ne'), ← EReal.coe_inv, ← EReal.coe_mul, div_eq_mul_inv]

/-! ## The power as exp ∘ log, on a positive real -/

theorem qExp_coe : ∃ q : ℝ, qExp = q := by
  unfold qExp
  simp only [Ideal.ofBits, Ideal.ieee]
  norm_num
  exact ⟨_, rfl⟩

theorem lossExpLog_coe (d : ℝ) (hd : 0 < d) : lossExpLog (d : EReal) = lossPow (d : EReal) := by
  obtain ⟨q, hq⟩ := qExp_coe
  unfold lossExpLog lossPow
  rw [hq, Ideal.log_coe, if_neg (not_le.2 hd), ← EReal.coe_mul, Ideal.exp_coe, Ideal.pow_coe_coe]
  congr 3
  show Real.exp (q * Real.log d) = d ^ q
  rw [Real.rpow_def_of_pos hd, mul_comm]

/-! ## The one-hot sum has one term -/

theorem sum_laneIs (p : Fin 21 → EReal) (w : BitVec 32) (hw : w.toNat < 21) :
    (∑ n : Fin 21, p n * laneIs w n) = p (labLane w) := by
  rw [Finset.sum_eq_single (labLane w)]
  · unfold laneIs labLane
    rw [if_pos (by simp only [Nat.mod_eq_of_lt hw, BitVec.ofNat_toNat, BitVec.setWidth_eq]), mul_one]
  · intro n _ hn
    unfold laneIs
    rw [if_neg, mul_zero]
    intro e
    apply hn
    apply Fin.ext
    have : (BitVec.ofNat 32 n.val).toNat = w.toNat := by rw [e]
    rw [BitVec.toNat_ofNat, Nat.mod_eq_of_lt (by have := n.isLt; omega)] at this
    show n.val = w.toNat % 21
    rw [Nat.mod_eq_of_lt hw]; exact this
  · intro h; exact absurd (Finset.mem_univ _) h

/-! ## The two arrangements agree on finite logits and labels inside the lanes -/

theorem outOneHot_eq_outGather (lg : Fin 16 → Fin 21 → Fin 21 → EReal) (lab : Fin 16 → Fin 21 → BitVec 32)
    (hfin : ∀ b c n, ∃ r : ℝ, lg b c n = r) (hlab : ∀ b k, (lab b k).toNat < 21) (k : Fin 21) :
    outOneHot lg lab k = outGather lg lab k := by
  unfold outOneHot outGather
  congr 1
  refine Finset.sum_congr rfl fun b _ => ?_
  rw [sum_laneIs (fun n => softmaxAt (fun c => lg b c n) k) (lab b k) (hlab b k)]
  choose f hf using fun c => hfin b c (labLane (lab b k))
  have hrow : (fun c => lg b c (labLane (lab b k))) = fun c => ((f c : ℝ) : EReal) := funext hf
  rw [hrow]
  obtain ⟨d, hd, e⟩ := softmaxAt_coe f k
  rw [e]
  exact lossExpLog_coe d hd

end Cert.Gce

end
-- ==== Proof.KernelRun.lean ====
/-
  What the kernel program leaves in its result array, read off its frame run.

  The grid has one point. Its output block is the whole [21, 1] result of the call, and the body stores there its
  arithmetic applied to the point's two input blocks: block (0, 0, 0, 0) of the logits, of extents [16, 21, 8, 128],
  and the whole [16, 21] array of labels, which the host cut out of the label image (row 0, columns 0 to 20) before
  the call. After the call the host reshapes the [21, 1] array to the [21] result.
-/
import proofs.«402393_j42975442763791_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable {F : FTy → Type} [FloatOps F]
variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The block the one grid point stores: the body's arithmetic of the point's two input blocks. -/
abbrev outBlk (c : Dev nD) : Vec F S21x1 .f32 := k0_pay1 (iblk m c 0 t0_0) (iblk m c 1 t0_0)

/-- What the point writes back is that block, read through the output window's block, which is the whole array. -/
theorem flushed_eq (c : Dev nD) (t : Fin cfg0.N) (hf : (cfg0.win 2).flush t = true) :
    (dats m 0 c).flushed 2 t = ((cfg0.win 2).blk t).view.read (Elt F) (outBlk m c) := by
  obtain rfl : t = t0_0 := fin_N0 t
  show (cfg0.win 2).cut (grid0.coords t0_0) ((dats m 0 c).after 2 t0_0) = _
  rw [after0_2]
  unfold out0_2
  rw [View.canon_unit_zero hz2]
  simp only [View.ld_unit_zero (S := S16x21x8x128) hz4, View.ld_unit_zero (S := S16x21) hz2]
  have hz' : (fun a => win0_2.index t0_0 a * main_v2.ty.shape.size a) = fun _ => 0 := funext fun a => by fin_cases a <;> decide
  exact (Memref.read_access_unit_zero (Elt F) main_v2 hz' (fun a => by rw [congrFun hz' a]; simp) (outBlk m c)).symm

/-- So the call's result array ends holding the block. -/
theorem final_out (c : Dev nD) : (dats m 0 c).arrAt 2 cfg0.N = outBlk m c :=
  (dats m 0 c).arrAt_eq_of_cover 2 (outBlk m c) (flushed_eq m c) fun i =>
    ⟨t0_0, flush0_2 t0_0, by
      show i ∈ ((View.whole main_v2).slice (win0_2.rect t0_0)).set
      rw [View.set_slice_whole, Rect.mem_set_unit]
      intro a
      have h0 : (i 0 : Nat) < 21 := (i 0).isLt
      have h1 : (i 1 : Nat) < 1 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 21 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1 from by decide +kernel]; omega⟩

/-- The host line after the call reshapes the call's result. -/
theorem tail_v3 (c : Dev nD) :
    Pipeline.afterTail₀ cfgs (dats m) 0 (V0 m) [hostOps1] c main_v3 = shapeCast S21 (outBlk m c) Facts₀.shapeCasts_S21x1_S21 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.tc.devRef main_v2)
      = outBlk m c :=
    (Pipeline.withArrays_arr spec0 launch0.win.arr_inj c (V0 m c) (fun w => (dats m 0 c).arrAt w (cfgs 0).N) 2).trans (final_out m c)
  rw [e]
  rfl

/-- The labels the call is handed: row 0, columns 0 to 20 of the label image. -/
theorem V_main_v1 (c : Dev nD) :
    (V m c main_v1 : S16x21.Idx → Elt F .i32) =
      shapeCast S16x21 (extractStridedSlice S16x1x21 ![0, 0, 0] (m ((c : Thread nD τ).loc main_arg1)) Facts₀.slices_S16x512x512_S16x1x21_0_0_0) Facts₀.shapeCasts_S16x1x21_S16x21 := by
  show StableHlo.after hostOps0 (fun b => m (c, b)) (Proc.devRef .tc main_v1) = _
  after_results
  rfl

/-- Entry (b, c, h, w) of the point's logits block is entry (b, c, h, w) of the logits: the block is the corner at the origin. -/
theorem iblk0_apply (c : Dev nD) (y : S16x21x8x128.Idx) (k : S16x21x512x512.Idx)
    (h0 : (k 0).val = (y 0).val) (h1 : (k 1).val = (y 1).val) (h2 : (k 2).val = (y 2).val) (h3 : (k 3).val = (y 3).val) :
    (iblk m c 0 t0_0 : Vec F S16x21x8x128 .f32) y = (m ((c : Thread nD τ).loc main_arg0) : S16x21x512x512.Idx → Elt F .f32) k := by
  have hi : win0_0.index t0_0 0 = 0 ∧ win0_0.index t0_0 1 = 0 ∧ win0_0.index t0_0 2 = 0 ∧ win0_0.index t0_0 3 = 0 := by decide
  unfold iblk
  rw [View.read_apply]
  refine (congrFun (V_main_arg0 m c) _).trans ?_
  congr 1
  funext a
  apply Fin.ext
  match a with
  | ⟨0, _⟩ => show win0_0.index t0_0 0 * 16 + 1 * (y 0).val = (k 0).val; rw [hi.1, h0]; omega
  | ⟨1, _⟩ => show win0_0.index t0_0 1 * 21 + 1 * (y 1).val = (k 1).val; rw [hi.2.1, h1]; omega
  | ⟨2, _⟩ => show win0_0.index t0_0 2 * 8 + 1 * (y 2).val = (k 2).val; rw [hi.2.2.1, h2]; omega
  | ⟨3, _⟩ => show win0_0.index t0_0 3 * 128 + 1 * (y 3).val = (k 3).val; rw [hi.2.2.2, h3]; omega

/-- Entry (b, j) of the point's label block is the label image at row 0, column j of sample b. -/
theorem iblk1_apply (c : Dev nD) (b : Fin 16) (j : Fin 21) :
    (iblk m c 1 t0_0 : Vec F S16x21 .i32) (ix2 b j)
      = (m ((c : Thread nD τ).loc main_arg1) : S16x512x512.Idx → Elt F .i32) (ix3 b (0 : Fin 512) ⟨j.val, by have := j.isLt; omega⟩) := by
  have hi : win0_1.index t0_0 0 = 0 ∧ win0_1.index t0_0 1 = 0 := by decide
  have e1 : (iblk m c 1 t0_0 : Vec F S16x21 .i32) (ix2 b j) = (V m c main_v1 : S16x21.Idx → Elt F .i32) (ix2 b j) := by
    unfold iblk
    rw [View.read_apply]
    show V m c main_v1 _ = V m c main_v1 _
    congr 1
    funext a
    apply Fin.ext
    match a with
    | ⟨0, _⟩ => show win0_1.index t0_0 0 * 16 + 1 * b.val = b.val; rw [hi.1]; omega
    | ⟨1, _⟩ => show win0_1.index t0_0 1 * 21 + 1 * j.val = j.val; rw [hi.2]; omega
  rw [e1, V_main_v1]
  rw [shapeCast_apply _ Facts₀.shapeCasts_S16x1x21_S16x21 (ix2 b j) (ix3 b (0 : Fin 1) j)
    (by rewrite [Shape.rowMajor_val_three, Shape.rowMajor_val_two]; show (b.val * 1 + 0) * 21 + j.val = b.val * 21 + j.val; omega)]
  refine extractStridedSlice_apply _ _ _ _ _ fun a => ?_
  match a with
  | ⟨0, _⟩ => show b.val = 0 + b.val; omega
  | ⟨1, _⟩ => show 0 = 0 + 0; rfl
  | ⟨2, _⟩ => show j.val = 0 + j.val; omega

/-- The kernel program's run, read: the result is the reshaped block, the arguments are unchanged. -/
theorem run : θ_run defs (onTc (τ := τ) (main (F := F))) ⟨m, fun _ => 0, ρ⟩ fun r => ∀ c : Dev nD,
      r.2.mem ((c : Thread nD τ).loc main_v3) = shapeCast S21 (outBlk m c) Facts₀.shapeCasts_S21x1_S21
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_v3 m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c)⟩)
    (run_main m ρ)

end Cert.KernelIdeal.RunValue

end
-- ==== Proof.KernelPayload.lean ====
/-
  The kernel body's arithmetic read at one class index.

  The body takes the logits x = x0[:, :, 0, :21] as a [16, 21 (class c), 21 (lane n)] array, subtracts the maximum over
  the class axis, exponentiates, divides by the sum over the class axis, multiplies by the one-hot lane mask (lane n
  equals the label of (b, k)), sums over the lanes, forms (1 - exp (q · log d)) / q, sums over the batch and divides by
  the batch size. Each operation that is not pointwise is read at explicit coordinates (the slice and its recast, the
  two class-axis reductions with their unit axis and broadcast, the mask, the lane sum, the batch sum), and the chain
  of these readings is the one-hot arrangement of the loss at class k.
-/
import proofs.«402393_j42975442763791_3_alg».proof.Proof.Spec
import proofs.«402393_j42975442763791_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Cert.Gce Idealize.ShloMosaic Idealize.ShloMosaic.ValueIdx

/-- The sliced and recast logits at (b, c, n): the input block at row 0 of the 8 and lane n of the 128. -/
theorem x_apply (x0 : Vec Ideal S16x21x8x128 .f32) (h1 : S16x21x8x128.Slices ![0, 0, 0, 0] S16x21x1x21)
    (h2 : S16x21x1x21.ShapeCasts S16x21x21) (b : Fin 16) (c : Fin 21) (n : Fin 21) :
    shapeCast S16x21x21 (extractStridedSlice S16x21x1x21 ![0, 0, 0, 0] x0 h1) h2 (ix3 b c n)
      = x0 (ix4 b c (0 : Fin 8) (lane128 n)) := by
  refine (shapeCast_apply _ _ (ix3 b c n) (ix4 b c (0 : Fin 1) n) ?_).trans ?_
  · rw [Shape.rowMajor_val_four, Shape.rowMajor_val_three]
    show ((b.val * 21 + c.val) * 1 + 0) * 21 + n.val = (b.val * 21 + c.val) * 21 + n.val
    omega
  · refine extractStridedSlice_apply _ _ _ _ _ fun a => ?_
    match a with
    | ⟨0, _⟩ => show b.val = 0 + b.val; omega
    | ⟨1, _⟩ => show c.val = 0 + c.val; omega
    | ⟨2, _⟩ => rfl
    | ⟨3, _⟩ => show n.val = 0 + n.val; omega

/-- The accumulator word of the maximum is -∞. -/
theorem negInf_word : Ideal.ofBits .f32 0xFF800000#32 = (⊥ : EReal) := by simp [Ideal.ofBits, Ideal.ieee]

/-- The index over (b, n) with class c inserted on axis 1. -/
theorem lift1 (h : S16x21x21.Reduces [1] S16x21) (b : Fin 16) (n : Fin 21) (c : Fin 21) :
    h.lift (ix2 b n) c = ix3 b c n := by
  funext a
  match a with
  | ⟨0, _⟩ => rfl
  | ⟨1, _⟩ => rfl
  | ⟨2, _⟩ => rfl

/-- The maximum over the class axis at (b, n) is the row's maximum. -/
theorem max_apply (v : FVec Ideal S16x21x21 .f32) (h : S16x21x21.Reduces [1] S16x21) (hφ : FKind.Formats .f32)
    (hacc : (0xFF800000#32 : BitVec 32) = FKind.maximumf.neutral .f32 hφ) (b : Fin 16) (n : Fin 21) :
    multiReduction .maximumf [1] S16x21 v 0xFF800000#32 h hφ hacc (ix2 b n) = rowMax (fun c => v (ix3 b c n)) := by
  refine (Ideal.multiReduction_maximumf_single v 0xFF800000#32 h hφ hacc (ix2 b n)).trans ?_
  show (Finset.univ : Finset (Fin 21)).fold max (Ideal.ofBits .f32 0xFF800000#32) (v ∘ h.lift (ix2 b n)) = _
  rw [negInf_word]
  unfold rowMax
  exact congrArg (fun f => (Finset.univ : Finset (Fin 21)).fold max (⊥ : EReal) f) (funext fun c => congrArg v (lift1 h b n c))

/-- The sum over the class axis at (b, n). -/
theorem sum1_apply (v : FVec Ideal S16x21x21 .f32) (h : S16x21x21.Reduces [1] S16x21) (hφ : FKind.Formats .f32)
    (hacc : (0x00000000#32 : BitVec 32) = FKind.add.neutral .f32 hφ) (b : Fin 16) (n : Fin 21) :
    multiReduction .add [1] S16x21 v 0x00000000#32 h hφ hacc (ix2 b n) = ∑ c : Fin 21, v (ix3 b c n) := by
  refine (Ideal.multiReduction_add_single v 0x00000000#32 h hφ hacc (ix2 b n)).trans ?_
  exact Finset.sum_congr rfl fun c _ => congrArg v (lift1 h b n c)

/-- A [16, 21] array recast with a unit class axis and broadcast along the classes reads (b, n) at (b, c, n). -/
theorem keep1_apply {α : Type} (v : S16x21.Idx → α) (h4 : S16x21.ShapeCasts S16x1x21) (h5 : S16x1x21.Broadcasts S16x21x21)
    (b : Fin 16) (c : Fin 21) (n : Fin 21) :
    broadcastTo S16x21x21 (shapeCast S16x1x21 v h4) h5 (ix3 b c n) = v (ix2 b n) := by
  refine (broadcastTo_apply _ h5 (ix3 b c n) (ix3 b (0 : Fin 1) n) fun a => ?_).trans ?_
  · match a with
    | ⟨0, _⟩ => rfl
    | ⟨1, _⟩ => rfl
    | ⟨2, _⟩ => rfl
  · refine shapeCast_apply v h4 _ (ix2 b n) ?_
    rw [Shape.rowMajor_val_three, Shape.rowMajor_val_two]
    show b.val * 21 + n.val = (b.val * 1 + 0) * 21 + n.val
    omega

/-- A [16, 21] array recast with a unit lane axis and broadcast along the lanes reads (b, k) at (b, k, n). -/
theorem keep2_apply {α : Type} (v : S16x21.Idx → α) (h4 : S16x21.ShapeCasts S16x21x1) (h5 : S16x21x1.Broadcasts S16x21x21)
    (b : Fin 16) (k : Fin 21) (n : Fin 21) :
    broadcastTo S16x21x21 (shapeCast S16x21x1 v h4) h5 (ix3 b k n) = v (ix2 b k) := by
  refine (broadcastTo_apply _ h5 (ix3 b k n) (ix3 b k (0 : Fin 1)) fun a => ?_).trans ?_
  · match a with
    | ⟨0, _⟩ => rfl
    | ⟨1, _⟩ => rfl
    | ⟨2, _⟩ => rfl
  · refine shapeCast_apply v h4 _ (ix2 b k) ?_
    rw [Shape.rowMajor_val_three, Shape.rowMajor_val_two]
    show b.val * 21 + k.val = (b.val * 21 + k.val) * 1 + 0
    omega

/-- A [16, 21] array recast with a unit lane axis reads (b, k) at (b, k, 0). -/
theorem col_apply {α : Type} (v : S16x21.Idx → α) (h4 : S16x21.ShapeCasts S16x21x1) (b : Fin 16) (k : Fin 21) (u : Fin 1) :
    shapeCast S16x21x1 v h4 (ix3 b k u) = v (ix2 b k) := by
  refine shapeCast_apply v h4 _ (ix2 b k) ?_
  rw [Shape.rowMajor_val_three, Shape.rowMajor_val_two]
  show b.val * 21 + k.val = (b.val * 21 + k.val) * 1 + u.val
  omega

/-- The index over (b, k) with lane n inserted on axis 2. -/
theorem lift2 (h : S16x21x21.Reduces [2] S16x21) (b : Fin 16) (k : Fin 21) (n : Fin 21) :
    h.lift (ix2 b k) n = ix3 b k n := by
  funext a
  match a with
  | ⟨0, _⟩ => rfl
  | ⟨1, _⟩ => rfl
  | ⟨2, _⟩ => rfl

/-- The sum over the lanes at (b, k). -/
theorem sum2_apply (v : FVec Ideal S16x21x21 .f32) (h : S16x21x21.Reduces [2] S16x21) (hφ : FKind.Formats .f32)
    (hacc : (0x00000000#32 : BitVec 32) = FKind.add.neutral .f32 hφ) (b : Fin 16) (k : Fin 21) :
    multiReduction .add [2] S16x21 v 0x00000000#32 h hφ hacc (ix2 b k) = ∑ n : Fin 21, v (ix3 b k n) := by
  refine (Ideal.multiReduction_add_single v 0x00000000#32 h hφ hacc (ix2 b k)).trans ?_
  exact Finset.sum_congr rfl fun n _ => congrArg v (lift2 h b k n)

/-- The index over (k, u) with sample b inserted on axis 0. -/
theorem lift0 (h : S16x21x1.Reduces [0] S21x1) (k : Fin 21) (u : Fin 1) (b : Fin 16) :
    h.lift (ix2 k u) b = ix3 b k u := by
  funext a
  match a with
  | ⟨0, _⟩ => rfl
  | ⟨1, _⟩ => rfl
  | ⟨2, _⟩ => rfl

/-- The sum over the batch at (k, u). -/
theorem sum0_apply (v : FVec Ideal S16x21x1 .f32) (h : S16x21x1.Reduces [0] S21x1) (hφ : FKind.Formats .f32)
    (hacc : (0x00000000#32 : BitVec 32) = FKind.add.neutral .f32 hφ) (k : Fin 21) (u : Fin 1) :
    multiReduction .add [0] S21x1 v 0x00000000#32 h hφ hacc (ix2 k u) = ∑ b : Fin 16, v (ix3 b k u) := by
  refine (Ideal.multiReduction_add_single v 0x00000000#32 h hφ hacc (ix2 k u)).trans ?_
  exact Finset.sum_congr rfl fun b _ => congrArg v (lift0 h k u b)

/-- Equality of two words, widened to 32 bits and converted, is 1 or 0. -/
theorem mask_word (a w : BitVec 32) :
    FloatOps.sitofp (F := Ideal) .f32 ((IntOp.cmpi .eq a w).setWidth 32) = if a = w then (1 : EReal) else 0 := by
  show ((((IntOp.cmpi .eq a w).setWidth 32).toInt : ℝ) : EReal) = _
  by_cases h : a = w
  · rw [if_pos h]; subst h; simp [IntOp.cmpi]
  · rw [if_neg h]
    have hb : (a == w) = false := by simpa using h
    simp [IntOp.cmpi, hb]

/-- The lane mask at (b, k, n): lane n against the label of (b, k). -/
theorem mask_apply (x1 : Vec Ideal S16x21 .i32) (h0 : S16x21.ShapeCasts S16x21) (hi : S16x21x21.Iotas .tc 32 [2])
    (h4 : S16x21.ShapeCasts S16x21x1) (h5 : S16x21x1.Broadcasts S16x21x21) (hlt : 1 < 32)
    (b : Fin 16) (k : Fin 21) (n : Fin 21) :
    (sitofp .f32 (extui 32 (cmpi .eq (iota .tc S16x21x21 32 [2] hi)
        (broadcastTo S16x21x21 (shapeCast S16x21x1 (shapeCast S16x21 x1 h0) h4) h5)) hlt) : FVec Ideal S16x21x21 .f32) (ix3 b k n)
      = laneIs (x1 (ix2 b k)) n := by
  show FloatOps.sitofp (F := Ideal) .f32 ((IntOp.cmpi .eq (iota .tc S16x21x21 32 [2] hi (ix3 b k n))
        (broadcastTo S16x21x21 (shapeCast S16x21x1 (shapeCast S16x21 x1 h0) h4) h5 (ix3 b k n))).setWidth 32) = _
  rw [iota_single_apply, keep2_apply, shapeCast_self, mask_word]
  rfl

/-- The shifted exponential at (b, c, n): exp of the entry less its pixel's maximum over the classes. -/
theorem e_apply (X : FVec Ideal S16x21x21 .f32) (h : S16x21x21.Reduces [1] S16x21) (hφ : FKind.Formats .f32)
    (hacc : (0xFF800000#32 : BitVec 32) = FKind.maximumf.neutral .f32 hφ)
    (h4 : S16x21.ShapeCasts S16x1x21) (h5 : S16x1x21.Broadcasts S16x21x21) (b : Fin 16) (c : Fin 21) (n : Fin 21) :
    exp (subf X (broadcastTo S16x21x21 (shapeCast S16x1x21
          (multiReduction .maximumf [1] S16x21 X 0xFF800000#32 h hφ hacc) h4) h5)) (ix3 b c n)
      = Ideal.exp (X (ix3 b c n) - rowMax (fun c => X (ix3 b c n))) := by
  show Ideal.exp (X (ix3 b c n) - broadcastTo S16x21x21 (shapeCast S16x1x21
          (multiReduction .maximumf [1] S16x21 X 0xFF800000#32 h hφ hacc) h4) h5 (ix3 b c n)) = _
  rw [keep1_apply, max_apply]

/-- The body's arithmetic at class k: the one-hot arrangement of the loss over the sampled logits and the labels. -/
theorem pay_apply (x0 : Vec Ideal S16x21x8x128 .f32) (x1 : Vec Ideal S16x21 .i32) (k : Fin 21) :
    k0_pay1 (F := Ideal) x0 x1 (ix2 k (0 : Fin 1)) =
      outOneHot (fun b c n => x0 (ix4 b c (0 : Fin 8) (lane128 n))) (fun b j => x1 (ix2 b j)) k := by
  have hx : ∀ (b : Fin 16) (c n : Fin 21), _ = x0 (ix4 b c (0 : Fin 8) (lane128 n)) := fun b c n =>
    x_apply x0 slices_S16x21x8x128_o0_0_0_0_S16x21x1x21 shapeCasts_S16x21x1x21_S16x21x21 b c n
  have hr : ∀ (b : Fin 16) (c n : Fin 21), Ideal.exp (_ - rowMax _) =
      Ideal.exp (x0 (ix4 b c (0 : Fin 8) (lane128 n)) - rowMax (fun c => x0 (ix4 b c (0 : Fin 8) (lane128 n)))) :=
    fun b c n => congrArg₂ (fun s (r : Fin 21 → EReal) => Ideal.exp (s - rowMax r)) (hx b c n) (funext fun c => hx b c n)
  unfold k0_pay1 outOneHot
  refine congrArg (fun t => Ideal.div t batchW) ?_
  refine (sum0_apply _ _ _ _ k 0).trans ?_
  refine Finset.sum_congr rfl fun b _ => ?_
  unfold lossExpLog
  refine congrArg (fun t => Ideal.div (oneW - Ideal.exp (qExp * Ideal.log t)) qExp) ?_
  refine (col_apply _ _ b k 0).trans ?_
  refine (sum2_apply _ _ _ _ b k).trans ?_
  refine Finset.sum_congr rfl fun n _ => ?_
  refine congrArg₂ (· * ·) ?_ (mask_apply x1 _ _ _ _ _ b k n)
  unfold softmaxAt
  refine congrArg₂ Ideal.div ((e_apply _ _ _ _ _ _ b k n).trans (hr b k n)) ?_
  refine (keep1_apply _ _ _ b k n).trans ?_
  refine (sum1_apply _ _ _ _ b n).trans ?_
  exact Finset.sum_congr rfl fun c _ => (e_apply _ _ _ _ _ _ b c n).trans (hr b c n)

end Cert.KernelIdeal.Payload

end
-- ==== Proof.RefValue.lean ====
/-
  The reference's result, read at an index.

  The reference flattens each image to 262144 pixels, takes the softmax over the 21 classes at every pixel (the maximum
  folded from -∞, one more maximum with -∞, the difference, the exponential, the sum, the quotient), takes the first 21
  labels of every sample, reads the class-k probability at the pixel the label names, and averages (1 - d^q) / q over
  the batch.  A label in [0, 21) is not negative and is inside the flat axis, so the index test passes and the clamp of
  the start index is the identity; a flat pixel below 512 is in row 0 of the image.  Hence result element k is
  outGather of the logits at row 0, columns 0..20, and of the labels at row 0, columns 0..20.
-/
import proofs.«402393_j42975442763791_3_alg».proof.Proof.Spec
import proofs.«402393_j42975442763791_3_alg».proof.Proof.Gen.ReferenceIdeal.Read
import Idealize.ShloMosaic.Lib.ValueIdx
import Idealize.ShloMosaic.PureOps.Reduce
import Idealize.ShloMosaic.PureOps.Ideal.Laws

noncomputable section

namespace Cert.ReferenceIdeal.RefValue

open Cert.ReferenceIdeal Cert.ReferenceIdeal.Gen Cert.Gce Idealize.ShloMosaic Idealize.ShloMosaic.ValueIdx
open Cert.ReferenceIdeal.Read

/-! ## Words -/

/-- The word 0xFF800000 is -∞. -/
theorem neg_inf : Ideal.ofBits .f32 0xFF800000#32 = (⊥ : EReal) := by
  simp [Ideal.ofBits, Ideal.ieee]

/-- A word that is not negative as a signed integer is not below zero … -/
theorem slt_zero (w : BitVec 32) (h : 0 ≤ w.toInt) : IntOp.cmpi .slt w 0#32 = 0#1 := by
  show BitVec.ofBool (decide (w.toInt < (0#32 : BitVec 32).toInt)) = 0#1
  rw [decide_eq_false (by rw [show (0#32 : BitVec 32).toInt = 0 from rfl]; omega)]
  rfl

/-- … and is at least zero. -/
theorem sge_zero (w : BitVec 32) (h : 0 ≤ w.toInt) : IntOp.cmpi .sge w 0#32 = 1#1 := by
  show BitVec.ofBool (decide ((0#32 : BitVec 32).toInt ≤ w.toInt)) = 1#1
  rw [decide_eq_true (by rw [show (0#32 : BitVec 32).toInt = 0 from rfl]; omega)]
  rfl

/-- A word below 21 is at most the last flat pixel. -/
theorem sle_top (w : BitVec 32) (h : w.toInt < 21) : IntOp.cmpi .sle w 262143#32 = 1#1 := by
  show BitVec.ofBool (decide (w.toInt ≤ (262143#32 : BitVec 32).toInt)) = 1#1
  rw [decide_eq_true (by rw [show (262143#32 : BitVec 32).toInt = 262143 from by decide]; omega)]
  rfl

/-- For a word in [0, 21) the signed and the unsigned readings agree. -/
theorem toNat_of_rng (w : BitVec 32) (h0 : 0 ≤ w.toInt) (h1 : w.toInt < 21) : w.toInt.toNat = w.toNat ∧ w.toNat < 21 := by
  rw [BitVec.toInt_eq_toNat_cond] at h0 h1 ⊢
  have := w.isLt
  split at h0 <;> omega

/-- A fold over a one-element axis is one application of the operation. -/
theorem fold_fin1 {α : Type} (f : α → α → α) [Std.Commutative f] [Std.Associative f] (i : α) (g : Fin 1 → α) :
    (Finset.univ : Finset (Fin 1)).fold f i g = f (g 0) i := by
  rw [Finset.univ_unique, Finset.fold_singleton]; rfl

/-! ## The softmax at a flat pixel in the image's first row -/

theorem red1 : S16x21x262144.Reduces [1] S16x262144 := by decide
theorem red3 : S16x21x1x1.Reduces [3] S16x21x1 := by decide

/-- Flat pixel p < 512 of sample b, class c is the image's row 0, column p. -/
theorem v0_at (x : (⟨S16x21x512x512, .f32⟩ : BufTy).Contents (Elt Ideal)) (b : Fin 16) (c : Fin 21) (p : Fin 262144)
    (hp : p.val < 512) :
    val_main_v0 (F := Ideal) x (ix3 b c p) = x (ix4 b c (0 : Fin 512) ⟨p.val, hp⟩) := by
  rw [val_main_v0_apply]
  refine congrArg x (funext fun a => Fin.ext ?_)
  have := b.isLt; have := c.isLt
  match a with
  | ⟨0, _⟩ => show ((b.val * 21 + c.val) * 262144 + p.val) / 5505024 = b.val; omega
  | ⟨1, _⟩ => show ((b.val * 21 + c.val) * 262144 + p.val) / 262144 % 21 = c.val; omega
  | ⟨2, _⟩ => show ((b.val * 21 + c.val) * 262144 + p.val) / 512 % 512 = 0; omega
  | ⟨3, _⟩ => show ((b.val * 21 + c.val) * 262144 + p.val) % 512 = p.val; omega

/-- The maximum over the class axis, folded from -∞. -/
theorem v1_at (x : (⟨S16x21x512x512, .f32⟩ : BufTy).Contents (Elt Ideal)) (b : Fin 16) (p : Fin 262144) :
    val_main_v1 (F := Ideal) x (ix2 b p) = rowMax (fun c => val_main_v0 (F := Ideal) x (ix3 b c p)) := by
  unfold val_main_v1
  rw [Host.reduce_eq_fold_single (FloatOps.maximumf (F := Ideal) (φ := .f32)) _ _ reducesTo_S16x21x262144_S16x262144_d1 red1 h_S_]
  unfold rowMax
  show (Finset.univ : Finset (Fin 21)).fold max (Ideal.ofBits .f32 0xFF800000#32)
    (fun c => val_main_v0 (F := Ideal) x (red1.lift (ix2 b p) c)) = _
  rw [neg_inf]
  refine congrArg (fun f => (Finset.univ : Finset (Fin 21)).fold max (⊥ : EReal) f) (funext fun c => ?_)
  refine congrArg (val_main_v0 (F := Ideal) x) (funext fun a => Fin.ext ?_)
  match a with
  | ⟨0, _⟩ => rfl
  | ⟨1, _⟩ => rfl
  | ⟨2, _⟩ => rfl

/-- One more maximum with -∞ changes nothing. -/
theorem v3_at (x : (⟨S16x21x512x512, .f32⟩ : BufTy).Contents (Elt Ideal)) (b : Fin 16) (p : Fin 262144) :
    val_main_v3 (F := Ideal) x (ix2 b p) = rowMax (fun c => val_main_v0 (F := Ideal) x (ix3 b c p)) := by
  rw [val_main_v3_apply, val_main_v2_apply, val_main_cst_0_apply, v1_at]
  show max (Ideal.ofBits .f32 0xFF800000#32) _ = _
  rw [neg_inf]
  exact max_eq_right bot_le

/-- The maximum, broadcast back over the class axis. -/
theorem v5_at (x : (⟨S16x21x512x512, .f32⟩ : BufTy).Contents (Elt Ideal)) (b : Fin 16) (c : Fin 21) (p : Fin 262144) :
    val_main_v5 (F := Ideal) x (ix3 b c p) = rowMax (fun c' => val_main_v0 (F := Ideal) x (ix3 b c' p)) := by
  rw [val_main_v5_apply, val_main_v4_apply]
  have e : idx_main_v4 (idx_main_v5 (ix3 b c p)) = ix2 b p := by
    funext a; match a with
    | ⟨0, _⟩ => rfl
    | ⟨1, _⟩ => rfl
  rw [e, v3_at]

/-- The exponential of the shifted logit. -/
theorem v7_at (x : (⟨S16x21x512x512, .f32⟩ : BufTy).Contents (Elt Ideal)) (b : Fin 16) (c : Fin 21) (p : Fin 262144) :
    val_main_v7 (F := Ideal) x (ix3 b c p) =
      Ideal.exp (val_main_v0 (F := Ideal) x (ix3 b c p) - rowMax (fun c' => val_main_v0 (F := Ideal) x (ix3 b c' p))) := by
  rw [val_main_v7_apply, val_main_v6_apply, v5_at]
  rfl

/-- The sum of the exponentials over the class axis, broadcast back. -/
theorem v10_at (x : (⟨S16x21x512x512, .f32⟩ : BufTy).Contents (Elt Ideal)) (b : Fin 16) (c : Fin 21) (p : Fin 262144) :
    val_main_v10 (F := Ideal) x (ix3 b c p) = ∑ c' : Fin 21, val_main_v7 (F := Ideal) x (ix3 b c' p) := by
  rw [val_main_v10_apply, val_main_v9_apply]
  have e : idx_main_v9 (idx_main_v10 (ix3 b c p)) = ix2 b p := by
    funext a; match a with
    | ⟨0, _⟩ => rfl
    | ⟨1, _⟩ => rfl
  rw [e, val_main_v8_apply, val_main_cst_1_apply]
  show Ideal.ofBits .f32 0x00000000#32 + _ = _
  rw [Ideal.ofBits_zero_f32, zero_add]
  refine Finset.sum_congr rfl fun c' _ => ?_
  refine congrArg (val_main_v7 (F := Ideal) x) (funext fun a => ?_)
  match a with
  | ⟨0, _⟩ => rfl
  | ⟨1, _⟩ => rfl
  | ⟨2, _⟩ => rfl

/-- The class-k probability at flat pixel p < 512 is the softmax of the logits at row 0, column p. -/
theorem v11_at (x : (⟨S16x21x512x512, .f32⟩ : BufTy).Contents (Elt Ideal)) (b : Fin 16) (k : Fin 21) (p : Fin 262144)
    (hp : p.val < 512) :
    val_main_v11 (F := Ideal) x (ix3 b k p) = softmaxAt (fun c => x (ix4 b c (0 : Fin 512) ⟨p.val, hp⟩)) k := by
  rw [val_main_v11_apply, v10_at]
  simp only [v7_at, v0_at x b _ p hp]
  rfl

/-! ## The labels and the index test -/

/-- Label k of sample b is the label image's row 0, column k. -/
theorem lab_at (t : (⟨S16x512x512, .i32⟩ : BufTy).Contents (Elt Ideal)) (b : Fin 16) (k : Fin 21) :
    val_main_v14 (F := Ideal) t (ix3 b k (0 : Fin 1)) = t (ix3 b (0 : Fin 512) (lane512 k)) := by
  rw [val_main_v14_apply, val_main_v13_apply, val_main_v12_apply]
  refine congrArg t (funext fun a => Fin.ext ?_)
  have := b.isLt; have := k.isLt
  match a with
  | ⟨0, _⟩ => show (b.val * 262144 + k.val) / 262144 = b.val; omega
  | ⟨1, _⟩ => show (b.val * 262144 + k.val) / 512 % 512 = 0; omega
  | ⟨2, _⟩ => show (b.val * 262144 + k.val) % 512 = k.val; omega

/-- A label that is not negative is not wrapped: the start index is the label. -/
theorem c5_at (t : (⟨S16x512x512, .i32⟩ : BufTy).Contents (Elt Ideal)) (b : Fin 16) (k : Fin 21)
    (h0 : 0 ≤ (t (ix3 b (0 : Fin 512) (lane512 k))).toInt) :
    val_main_call0_v5 (F := Ideal) t (ix4 b k (0 : Fin 1) (0 : Fin 1)) = t (ix3 b (0 : Fin 512) (lane512 k)) := by
  rw [val_main_call0_v5_apply]
  have e : idx_main_call0_v5 (ix4 b k (0 : Fin 1) (0 : Fin 1)) = ix3 b k (0 : Fin 1) := by
    funext a; apply Fin.ext
    have := b.isLt; have := k.isLt
    match a with
    | ⟨0, _⟩ => show (((b.val * 21 + k.val) * 1 + 0) * 1 + 0) / 21 = b.val; omega
    | ⟨1, _⟩ => show (((b.val * 21 + k.val) * 1 + 0) * 1 + 0) / 1 % 21 = k.val; omega
    | ⟨2, _⟩ => rfl
  rw [e, val_main_call0_v4_apply, val_main_call0_v1_apply, lab_at, val_main_call0_v0_apply, val_main_call0_c_apply,
    slt_zero _ h0, select_zero]

/-- A label in [0, 21) passes the test 0 ≤ index ≤ 262143. -/
theorem c11_at (t : (⟨S16x512x512, .i32⟩ : BufTy).Contents (Elt Ideal)) (b : Fin 16) (k : Fin 21)
    (h0 : 0 ≤ (t (ix3 b (0 : Fin 512) (lane512 k))).toInt) (h1 : (t (ix3 b (0 : Fin 512) (lane512 k))).toInt < 21) :
    val_main_call0_v11 (F := Ideal) t (ix4 b k (0 : Fin 1) (0 : Fin 1)) = 1#1 := by
  rw [val_main_call0_v11_apply, val_main_call0_v7_apply, val_main_call0_v10_apply, c5_at t b k h0,
    val_main_call0_v6_apply, val_main_call0_c_2_apply, val_main_call0_v9_apply, val_main_call0_v8_apply,
    val_main_call0_c_1_apply, sge_zero _ h0, sle_top _ h1]
  rfl

/-- The conjunction over the index vector's one component is that component's test. -/
theorem c12_at (t : (⟨S16x512x512, .i32⟩ : BufTy).Contents (Elt Ideal)) (b : Fin 16) (k : Fin 21) :
    val_main_call0_v12 (F := Ideal) t (ix3 b k (0 : Fin 1)) = val_main_call0_v11 (F := Ideal) t (ix4 b k (0 : Fin 1) (0 : Fin 1)) := by
  unfold val_main_call0_v12
  rw [Host.reduce_eq_fold_single (IntOp.andi (w := 1)) _ _ reducesTo_S16x21x1x1_S16x21x1_d3 red3 h_S_]
  refine (fold_fin1 (IntOp.andi (w := 1)) _ _).trans ?_
  have e : red3.lift (ix3 b k (0 : Fin 1)) (0 : Fin 1) = ix4 b k (0 : Fin 1) (0 : Fin 1) := by
    funext a; apply Fin.ext
    match a with
    | ⟨0, _⟩ => rfl
    | ⟨1, _⟩ => rfl
    | ⟨2, _⟩ => rfl
    | ⟨3, _⟩ => rfl
  show IntOp.andi (val_main_call0_v11 (F := Ideal) t (red3.lift (ix3 b k (0 : Fin 1)) (0 : Fin 1))) (1#1) = _
  rw [e]
  generalize val_main_call0_v11 (F := Ideal) t (ix4 b k (0 : Fin 1) (0 : Fin 1)) = w
  show w &&& 1#1 = w
  rcases BitVec.eq_zero_or_eq_one w with h | h <;> rw [h] <;> rfl

/-! ## The gather: sample and class are batching axes, the pixel axis is collapsed and indexed -/

abbrev gd := gather_S16x21x262144_S16x21x1x1_S16x21x1_n_2_01_01_2_3_111

theorem g_axis0 (idx : IVec S16x21x1x1 32) (b : Fin 16) (k : Fin 21) :
    gd.start (ix3 b k (0 : Fin 1)) idx (0 : Fin 3) + gd.batchCoord (ix3 b k (0 : Fin 1)) (0 : Fin 3)
      + gd.offCoord (ix3 b k (0 : Fin 1)) (0 : Fin 3) = b.val := by
  rw [GatherDims.offCoord_eq_zero _ _ _ (fun h => ((GatherDims.mem_sKept _ _).mp h).2 (by decide)),
    GatherDims.start_batching _ _ _ _ (by decide), Nat.zero_add, Nat.add_zero]
  rfl

theorem g_axis1 (idx : IVec S16x21x1x1 32) (b : Fin 16) (k : Fin 21) :
    gd.start (ix3 b k (0 : Fin 1)) idx (1 : Fin 3) + gd.batchCoord (ix3 b k (0 : Fin 1)) (1 : Fin 3)
      + gd.offCoord (ix3 b k (0 : Fin 1)) (1 : Fin 3) = k.val := by
  rw [GatherDims.offCoord_eq_zero _ _ _ (fun h => ((GatherDims.mem_sKept _ _).mp h).2 (by decide)),
    GatherDims.start_batching _ _ _ _ (by decide), Nat.zero_add, Nat.add_zero]
  rfl

theorem g_axis2 (idx : IVec S16x21x1x1 32) (b : Fin 16) (k : Fin 21) :
    gd.start (ix3 b k (0 : Fin 1)) idx (2 : Fin 3) + gd.batchCoord (ix3 b k (0 : Fin 1)) (2 : Fin 3)
      + gd.offCoord (ix3 b k (0 : Fin 1)) (2 : Fin 3) = min (idx (ix4 b k (0 : Fin 1) (0 : Fin 1))).toInt.toNat 262143 := by
  rw [GatherDims.offCoord_eq_zero _ _ _ (fun h => ((GatherDims.mem_sKept _ _).mp h).1 (by decide)),
    GatherDims.batchCoord_eq_zero _ _ _ (by decide), Nat.add_zero]
  unfold GatherDims.start
  rw [dif_pos (by decide)]
  have hsi : gd.siIdx (ix3 b k (0 : Fin 1)) ⟨List.idxOf (2 : Fin 3) gd.startIndexMap,
      List.idxOf_lt_length_iff.2 (by decide)⟩ = ix4 b k (0 : Fin 1) (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The gather at (b, k, 0) reads the probabilities at (b, k, the start index clamped into the flat axis). -/
theorem c13_at (x : (⟨S16x21x512x512, .f32⟩ : BufTy).Contents (Elt Ideal)) (t : (⟨S16x512x512, .i32⟩ : BufTy).Contents (Elt Ideal))
    (b : Fin 16) (k : Fin 21) :
    val_main_call0_v13 (F := Ideal) x t (ix3 b k (0 : Fin 1)) =
      val_main_v11 (F := Ideal) x (ix3 b k
        ⟨min (val_main_call0_v5 (F := Ideal) t (ix4 b k (0 : Fin 1) (0 : Fin 1))).toInt.toNat 262143, by omega⟩) := by
  unfold val_main_call0_v13 Host.gather
  refine congrArg (val_main_v11 (F := Ideal) x) (funext fun a => Fin.ext ?_)
  match a with
  | ⟨0, _⟩ => exact g_axis0 _ b k
  | ⟨1, _⟩ => exact g_axis1 _ b k
  | ⟨2, _⟩ => exact g_axis2 _ b k

/-! ## The gathered probability, the loss entry, the batch mean -/

/-- The gathered probability of sample b, class k: the softmax at the pixel the label names. -/
theorem v16_at (x : (⟨S16x21x512x512, .f32⟩ : BufTy).Contents (Elt Ideal)) (t : (⟨S16x512x512, .i32⟩ : BufTy).Contents (Elt Ideal))
    (b : Fin 16) (k : Fin 21)
    (h0 : 0 ≤ (t (ix3 b (0 : Fin 512) (lane512 k))).toInt) (h1 : (t (ix3 b (0 : Fin 512) (lane512 k))).toInt < 21) :
    val_main_v16 (F := Ideal) x t (ix2 b k) =
      softmaxAt (fun c => x (ix4 b c (0 : Fin 512) (lane512 (labLane (t (ix3 b (0 : Fin 512) (lane512 k))))))) k := by
  rw [val_main_v16_apply]
  have e : idx_main_v16 (ix2 b k) = ix3 b k (0 : Fin 1) := by
    funext a; apply Fin.ext
    have := b.isLt; have := k.isLt
    match a with
    | ⟨0, _⟩ => show (b.val * 21 + k.val) / 21 = b.val; omega
    | ⟨1, _⟩ => show (b.val * 21 + k.val) / 1 % 21 = k.val; omega
    | ⟨2, _⟩ => rfl
  obtain ⟨hn, hlt⟩ := toNat_of_rng _ h0 h1
  rw [e, val_main_v15_apply, c12_at, c11_at t b k h0 h1, select_one, c13_at]
  have hp : min (val_main_call0_v5 (F := Ideal) t (ix4 b k (0 : Fin 1) (0 : Fin 1))).toInt.toNat 262143 < 512 := by
    rw [c5_at t b k h0, hn]; omega
  rw [v11_at x b k _ hp]
  have hq : (⟨min (val_main_call0_v5 (F := Ideal) t (ix4 b k (0 : Fin 1) (0 : Fin 1))).toInt.toNat 262143, hp⟩ : Fin 512)
      = lane512 (labLane (t (ix3 b (0 : Fin 512) (lane512 k)))) := by
    apply Fin.ext
    show min (val_main_call0_v5 (F := Ideal) t (ix4 b k (0 : Fin 1) (0 : Fin 1))).toInt.toNat 262143
      = (t (ix3 b (0 : Fin 512) (lane512 k))).toNat % 21
    rw [c5_at t b k h0, hn]; omega
  rw [hq]

/-- The loss entry of sample b, class k. -/
theorem v22_at (x : (⟨S16x21x512x512, .f32⟩ : BufTy).Contents (Elt Ideal)) (t : (⟨S16x512x512, .i32⟩ : BufTy).Contents (Elt Ideal))
    (j : S16x21.Idx) :
    val_main_v22 (F := Ideal) x t j = lossPow (val_main_v16 (F := Ideal) x t j) := by
  rw [val_main_v22_apply, val_main_v20_apply, val_main_v19_apply, val_main_cst_3_apply, val_main_v18_apply,
    val_main_v17_apply, val_main_cst_2_apply, val_main_v21_apply, val_main_cst_4_apply]
  rfl

/-- THE REFERENCE'S RESULT AT CLASS k: the batch mean of the loss entries, as outGather states it. -/
theorem ref_apply (x : (⟨S16x21x512x512, .f32⟩ : BufTy).Contents (Elt Ideal)) (t : (⟨S16x512x512, .i32⟩ : BufTy).Contents (Elt Ideal))
    (hrng : ∀ i, 0 ≤ (t i).toInt ∧ (t i).toInt < 21) (i : S21.Idx) :
    Cert.ReferenceIdeal.Read.val_main_v25 (F := Ideal) x t i =
      outGather (fun b c n => x (ix4 b c (0 : Fin 512) (lane512 n))) (fun b j => t (ix3 b (0 : Fin 512) (lane512 j))) (i 0) := by
  obtain ⟨k, rfl⟩ : ∃ k : Fin 21, i = ix1 k := ⟨i 0, eq_ix1 i⟩
  show val_main_v25 (F := Ideal) x t (ix1 k) =
    outGather (fun b c n => x (ix4 b c (0 : Fin 512) (lane512 n))) (fun b j => t (ix3 b (0 : Fin 512) (lane512 j))) k
  rw [val_main_v25_apply, val_main_v24_apply, val_main_cst_6_apply, val_main_v23_apply, val_main_cst_5_apply]
  show Ideal.div (Ideal.ofBits .f32 0x00000000#32 + _) batchW = _
  rw [Ideal.ofBits_zero_f32, zero_add]
  unfold outGather
  refine congrArg (fun s => Ideal.div s batchW) (Finset.sum_congr rfl fun b _ => ?_)
  have e : idx_main_v23 (ix1 k) b = ix2 b k := by
    funext a; match a with
    | ⟨0, _⟩ => rfl
    | ⟨1, _⟩ => rfl
  rw [e, v22_at, v16_at x t b k (hrng _).1 (hrng _).2]

end Cert.ReferenceIdeal.RefValue

end
-- ==== Proof.PreDecode.lean ====
import proofs.«402393_j42975442763791_3_alg».proof.Pre_finite_inputs
import proofs.«402393_j42975442763791_3_alg».proof.Proof.Gen.Pre_finite_inputs
import Idealize.ShloMosaic.Lib.ReduceAll
import Idealize.ShloMosaic.Lib.ValueIdx
import Idealize.ShloMosaic.PureOps.Ideal

namespace Cert.PreDecode

open Cert.Pre_finite_inputs Idealize.ShloMosaic

/-- The rank-0 shape has exactly one index. -/
instance : Subsingleton S_.Idx := ⟨fun a b => funext fun d => d.elim0⟩

/-- An extended real whose absolute value `max x (-x)` lies strictly below the f32 pattern of `+∞` is a real number:
    both infinities have absolute value `⊤`, which is not below `⊤`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition read back. Its value at the one index of the rank-0 result is a conjunction of two
    conjunctions over all indices: `|x i| < +∞` for every logit, and `0 ≤ t i` together with `t i < 21` (signed) for every
    target. A conjunction over all indices that is 1 is 1 at each index; the float fact there says `x i` is a real number,
    the two word comparisons are the two bounds on `(t i).toInt`. -/
theorem of_pre [Cert.Pre_finite_inputs.Facts] (x : FVec Ideal S16x21x512x512 .f32) (t : IVec S16x512x512 32)
    (h : Cert.Pre_finite_inputs.fn (F := Ideal) x t = fun _ => 1#1) :
    (∀ i, ∃ r : ℝ, x i = (r : EReal)) ∧ (∀ i, 0 ≤ (t i).toInt ∧ (t i).toInt < 21) := by
  have h0 := congrFun h ValueIdx.ix0
  dsimp only [fn] at h0
  obtain ⟨h1, h2⟩ := IntOp.andi_eq_one.1 h0
  refine ⟨fun i => ?_, fun i => ?_⟩
  · have e := Host.reduce_andi_all _ _ _ _ _ h1 i
    exact real_of_abs_lt_inf (x i) e
  · have e := Host.reduce_andi_all _ _ _ _ _ h2 i
    obtain ⟨e1, e2⟩ := IntOp.andi_eq_one.1 e
    have g1 := IntOp.cmpi_sge.1 e1
    have g2 := IntOp.cmpi_slt.1 e2
    exact ⟨g1, g2⟩

end Cert.PreDecode
-- ==== Proof.lean ====
/-
  The generalized cross-entropy loss kernel against its reference, over the extended reals.

  Both programs compute, for each class k, the batch mean over the 16 samples b of (1 - d^q) / q, where q is the binary
  word of 0.8 that both carry and d is the softmax probability, over the 21 classes, of class k at the pixel of sample b
  whose flat position in the 512 x 512 image is the label found at row 0, column k of the label image.

  The kernel program loads only the corner block [16, 21, 8, 128] of the logits and uses its row 0, columns 0 to 20: the
  softmax over the class axis there, the probability selected by a one-hot mask over those 21 lanes and a lane sum, the
  power as exp (q log d). The reference takes the softmax of the whole image, gathers the probability at the labelled flat
  pixel and uses the power function. Under the precondition every logit is finite and every label lies in [0, 21), so the
  labelled pixel is in row 0 among the 21 lanes, the one-hot sum has the single term the reference gathers, and that
  probability is a positive real, where exp (q log d) = d^q.

  The kernel program's result is read off its frame run (the one grid point's output block, reshaped by the host), the
  reference's off its run, operation by operation; the three frames are the runs with the results dropped; no operation was
  rewritten by the idealization, so the preservation claim is empty.
-/
import proofs.«402393_j42975442763791_3_alg».proof.Defs
import proofs.«402393_j42975442763791_3_alg».proof.Proof.Gen.Kernel
import proofs.«402393_j42975442763791_3_alg».proof.Proof.Gen.Kernel.Skeleton
import proofs.«402393_j42975442763791_3_alg».proof.Proof.Gen.Kernel.Launch
import proofs.«402393_j42975442763791_3_alg».proof.Proof.Gen.Kernel.Points
import proofs.«402393_j42975442763791_3_alg».proof.Proof.Gen.Kernel.Frame
import proofs.«402393_j42975442763791_3_alg».proof.Proof.Gen.KernelIdeal
import proofs.«402393_j42975442763791_3_alg».proof.Proof.Gen.KernelIdeal.Skeleton
import proofs.«402393_j42975442763791_3_alg».proof.Proof.Gen.KernelIdeal.Launch
import proofs.«402393_j42975442763791_3_alg».proof.Proof.Gen.KernelIdeal.Points
import proofs.«402393_j42975442763791_3_alg».proof.Proof.Gen.KernelIdeal.Frame
import proofs.«402393_j42975442763791_3_alg».proof.Proof.Gen.ReferenceIdeal
import proofs.«402393_j42975442763791_3_alg».proof.Proof.Gen.ReferenceIdeal.Run
import proofs.«402393_j42975442763791_3_alg».proof.Proof.Gen.ReferenceIdeal.Read
import proofs.«402393_j42975442763791_3_alg».proof.Proof.Gen.Pre_finite_inputs
import proofs.«402393_j42975442763791_3_alg».proof.Proof.Spec
import proofs.«402393_j42975442763791_3_alg».proof.Proof.KernelRun
import proofs.«402393_j42975442763791_3_alg».proof.Proof.KernelPayload
import proofs.«402393_j42975442763791_3_alg».proof.Proof.RefValue
import proofs.«402393_j42975442763791_3_alg».proof.Proof.PreDecode
import Idealize.ShloMosaic.Lib.Pipeline.Value
import Idealize.ShloMosaic.Lib.ValueIdx
import Idealize.ShloMosaic.Adequacy
import Idealize.ShloMosaic.Init

set_option maxRecDepth 16384

noncomputable section

open Idealize.ShloMosaic Idealize.ShloMosaic.TcCoe Idealize.SL.Sem Idealize.ShloMosaic.ValueIdx

namespace Cert.Proof.Gce

open Cert.Gce

/-- The loss vector both programs end with, as a function of the logits and the label image: entry k is the batch mean
    of (1 - d^q) / q, d the softmax probability of class k at row 0, column (label at row 0, column k) of the sample. -/
def result (x : Cert.KernelIdeal.S16x21x512x512.Idx → EReal) (t : Cert.KernelIdeal.S16x512x512.Idx → BitVec 32) :
    Cert.KernelIdeal.S21.Idx → EReal :=
  fun i => outOneHot (fun b c n => x (ix4 b c (0 : Fin 512) (lane512 n))) (fun b j => t (ix3 b (0 : Fin 512) (lane512 j))) (i 0)

/-- The kernel program's result: the reshaped output block, the body's arithmetic read at an index, and the two input
    blocks read off the argument arrays. -/
theorem kernel_result (m : (ℓ : Loc Cert.KernelIdeal.nD Cert.KernelIdeal.τ Cert.KernelIdeal.sig) → Buf (Elt Ideal) ℓ)
    (c : Dev Cert.KernelIdeal.nD) :
    shapeCast Cert.KernelIdeal.S21 (Cert.KernelIdeal.RunValue.outBlk (F := Ideal) m c) Cert.KernelIdeal.Facts₀.shapeCasts_S21x1_S21
      = result (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  funext i
  obtain ⟨k, rfl⟩ : ∃ k : Fin 21, i = ix1 k := ⟨i 0, eq_ix1 i⟩
  refine (shapeCast_apply _ _ (ix1 k) (ix2 k (0 : Fin 1))
    (by rewrite [Shape.rowMajor_val_two, Shape.rowMajor_val_one]; show k.val * 1 + 0 = k.val; omega)).trans ?_
  refine (Cert.KernelIdeal.Payload.pay_apply _ _ k).trans ?_
  unfold result
  refine congrArg₂ (fun f g => outOneHot f g k) ?_ ?_
  · funext b cc n
    exact Cert.KernelIdeal.RunValue.iblk0_apply m c (ix4 b cc (0 : Fin 8) (lane128 n)) (ix4 b cc (0 : Fin 512) (lane512 n)) rfl rfl rfl rfl
  · funext b j
    exact Cert.KernelIdeal.RunValue.iblk1_apply m c b j

/-- A label word whose signed value is in [0, 21) is below 21 as a natural number. -/
theorem toNat_lt_of_toInt (w : BitVec 32) (h0 : 0 ≤ w.toInt) (h1 : w.toInt < 21) : w.toNat < 21 := by
  have e := BitVec.toInt_eq_toNat_cond w
  have hw := w.isLt
  split at e <;> omega

/-- The reference program's result, on finite logits and labels in [0, 21): the labelled pixel is one of the 21 lanes,
    and there the two arrangements of the loss agree. -/
theorem reference_result (m' : (ℓ : Loc Cert.ReferenceIdeal.nD Cert.ReferenceIdeal.τ Cert.ReferenceIdeal.sig) → Buf (Elt Ideal) ℓ)
    (c : Dev Cert.ReferenceIdeal.nD)
    (hfin : ∀ i, ∃ r : ℝ, m' ((c.tc : Thread Cert.ReferenceIdeal.nD Cert.ReferenceIdeal.τ).loc Cert.ReferenceIdeal.main_arg0) i = (r : EReal))
    (hrng : ∀ i, 0 ≤ (m' ((c.tc : Thread Cert.ReferenceIdeal.nD Cert.ReferenceIdeal.τ).loc Cert.ReferenceIdeal.main_arg1) i).toInt
      ∧ (m' ((c.tc : Thread Cert.ReferenceIdeal.nD Cert.ReferenceIdeal.τ).loc Cert.ReferenceIdeal.main_arg1) i).toInt < 21) :
    Cert.ReferenceIdeal.Value.res_main_v25 (F := Ideal) m' c
      = result (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1)) := by
  rw [Cert.ReferenceIdeal.Read.val_main_v25_eq]
  funext i
  refine (Cert.ReferenceIdeal.RefValue.ref_apply _ _ hrng i).trans ?_
  unfold result
  exact (outOneHot_eq_outGather _ _ (fun b cc n => hfin _) (fun b k => toNat_lt_of_toInt _ (hrng _).1 (hrng _).2) (i 0)).symm

end Cert.Proof.Gce

namespace Cert.Proof

open Cert.Proof.Gce

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with result of the arguments: the kernel program by its run read back, the reference by
    its run and the agreement of the two arrangements under the precondition (finite logits, labels in [0, 21)). -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c => ⟨(h c).1.trans (kernel_result m c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨hfin, hrng⟩ := Cert.PreDecode.of_pre _ _ (hpre c)
    rw [reference_result m' c (by rw [(hagree c).1]; exact hfin) (by rw [(hagree c).2]; exact hrng), (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
